-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128x64 .f32) (main_arg15 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S128x128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S200000x128 .f32) (main_arg1 : FVec F S100000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S128x128 .f32) (main_arg14 : FVec F S128x64 .f32) (main_arg15 : FVec F S64 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S200000x128 : Shape := ⟨2, ![200000, 128]⟩
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S200000 : Shape := ⟨1, ![200000]⟩
abbrev S800000x1 : Shape := ⟨2, ![800000, 1]⟩
abbrev S100000 : Shape := ⟨1, ![100000]⟩
abbrev S800000x128 : Shape := ⟨2, ![800000, 128]⟩
abbrev S200000x1 : Shape := ⟨2, ![200000, 1]⟩
abbrev S8000x128 : Shape := ⟨2, ![8000, 128]⟩
abbrev S1x128 : Shape := ⟨2, ![1, 128]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩

abbrev nBuf : Space → Nat
  | .hbm => 104
  | .vmem => 17
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x64, .f32⟩
  | .hbm, ⟨15, _⟩ => ⟨S64, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S200000, .f32⟩
  | .hbm, ⟨20, _⟩ => ⟨S800000x1, .i32⟩
  | .hbm, ⟨21, _⟩ => ⟨S200000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S200000x128, .f32⟩
  | .hbm, ⟨37, _⟩ => ⟨S800000x1, .i32⟩
  | .hbm, ⟨38, _⟩ => ⟨S200000x128, .f32⟩
  | .hbm, ⟨39, _⟩ => ⟨S_, .f32⟩
  | .hbm, ⟨40, _⟩ => ⟨S200000, .f32⟩
  | .hbm, ⟨41, _⟩ => ⟨S200000, .f32⟩
  | .hbm, ⟨42, _⟩ => ⟨S200000x1, .f32⟩
  | .hbm, ⟨43, _⟩ => ⟨S200000x128, .f32⟩
  | .hbm, ⟨44, _⟩ => ⟨S200000x128, .f32⟩
  | .hbm, ⟨45, _⟩ => ⟨S200000x128, .f32⟩
  | .hbm, ⟨46, _⟩ => ⟨S_, .f32⟩
  | .hbm, ⟨47, _⟩ => ⟨S200000, .f32⟩
  | .hbm, ⟨48, _⟩ => ⟨S200000, .i1⟩
  | .hbm, ⟨49, _⟩ => ⟨S_, .f32⟩
  | .hbm, ⟨50, _⟩ => ⟨S200000, .f32⟩
  | .hbm, ⟨51, _⟩ => ⟨S200000, .f32⟩
  | .hbm, ⟨52, _⟩ => ⟨S200000, .f32⟩
  | .hbm, ⟨53, _⟩ => ⟨S_, .f32⟩
  | .hbm, ⟨54, _⟩ => ⟨S_, .f32⟩
  | .hbm, ⟨55, _⟩ => ⟨S200000, .f32⟩
  | .hbm, ⟨56, _⟩ => ⟨S200000, .f32⟩
  | .hbm, ⟨57, _⟩ => ⟨S_, .f32⟩
  | .hbm, ⟨58, _⟩ => ⟨S100000, .f32⟩
  | .hbm, ⟨59, _⟩ => ⟨S100000, .i1⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000, .f32⟩
  | .hbm, ⟨64, _⟩ => ⟨S_, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S800000x1, .f32⟩
  | .hbm, ⟨97, _⟩ => ⟨S800000x128, .f32⟩
  | .hbm, ⟨98, _⟩ => ⟨S800000x128, .f32⟩
  | .hbm, ⟨99, _⟩ => ⟨S_, .f32⟩
  | .hbm, ⟨100, _⟩ => ⟨S100000x128, .f32⟩
  | .hbm, ⟨101, _⟩ => ⟨S800000x1, .i32⟩
  | .hbm, ⟨102, _⟩ => ⟨S100000x128, .f32⟩
  | .hbm, ⟨103, _⟩ => ⟨S100000x64, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S8000x128, .f32⟩
  | .local _ .vmem, ⟨9, _⟩ => ⟨S8000x128, .f32⟩
  | .local _ .vmem, ⟨10, _⟩ => ⟨S10000x128, .f32⟩
  | .local _ .vmem, ⟨11, _⟩ => ⟨S10000x128, .f32⟩
  | .local _ .vmem, ⟨12, _⟩ => ⟨S128, .f32⟩
  | .local _ .vmem, ⟨13, _⟩ => ⟨S128x64, .f32⟩
  | .local _ .vmem, ⟨14, _⟩ => ⟨S64, .f32⟩
  | .local _ .vmem, ⟨15, _⟩ => ⟨S10000x64, .f32⟩
  | .local _ .vmem, ⟨16, _⟩ => ⟨S10000x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v28 : Ref sig .tc := ⟨.hbm, 56, rfl⟩
abbrev main_cst_8 : Ref sig .tc := ⟨.hbm, 57, rfl⟩
abbrev main_v29 : Ref sig .tc := ⟨.hbm, 58, rfl⟩
abbrev main_v30 : Ref sig .tc := ⟨.hbm, 59, rfl⟩
abbrev main_cst_9 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_10 : Ref sig .tc := ⟨.hbm, 64, rfl⟩
abbrev main_call1_v0 : Ref sig .tc := ⟨.hbm, 65, rfl⟩
abbrev main_call1_v1 : Ref sig .tc := ⟨.hbm, 66, rfl⟩
abbrev main_v34 : Ref sig .tc := ⟨.hbm, 67, rfl⟩
abbrev main_c_11 : Ref sig .tc := ⟨.hbm, 68, rfl⟩
abbrev main_v35 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_13 : Ref sig .tc := ⟨.hbm, 77, rfl⟩
abbrev main_v42 : Ref sig .tc := ⟨.hbm, 78, rfl⟩
abbrev main_v43 : Ref sig .tc := ⟨.hbm, 79, rfl⟩
abbrev main_c_14 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_15 : Ref sig .tc := ⟨.hbm, 87, rfl⟩
abbrev main_v50 : Ref sig .tc := ⟨.hbm, 88, rfl⟩
abbrev main_v51 : Ref sig .tc := ⟨.hbm, 89, rfl⟩
abbrev main_c_16 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_17 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S_S100000 : S_.BroadcastsInDim S100000 (![] : Fin 0 → Fin S100000.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S200000_S800000x1_S800000_n_0_0_1_wf : ScatterDims.WF S200000 S800000x1 S800000 [] [0] [0] 1
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  dot_S8000x128_S128x128_S8000x128_1_0_0_1_n_n_wf : DotDims.WF S8000x128 S128x128 S8000x128 [1] [0] [0] [1] [] []
  gather_S200000_S800000x1_S800000_n_0_n_n_0_1_1_wf : GatherDims.WF S200000 S800000x1 S800000 [] [0] [] [0] [] 1 ![1]
  gather_S100000_S800000x1_S800000_n_0_n_n_0_1_1_wf : GatherDims.WF S100000 S800000x1 S800000 [] [0] [] [0] [] 1 ![1]
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S200000x128.size a
  hwx0_1 : ∀ i : grid0.Coords, EltTy.bits .f32 = 32 ∨ (Rect.block (s := S200000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S200000x128.size a
  hwx0_6 : ∀ i : grid0.Coords, EltTy.bits .f32 = 32 ∨ (Rect.block (s := S200000x128) S8000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v21) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v62) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S200000 : Shape := ⟨1, ![200000]⟩
abbrev S800000x1 : Shape := ⟨2, ![800000, 1]⟩
abbrev S100000 : Shape := ⟨1, ![100000]⟩
abbrev S800000x128 : Shape := ⟨2, ![800000, 128]⟩
abbrev S1x128 : Shape := ⟨2, ![1, 128]⟩
abbrev S200000x1 : Shape := ⟨2, ![200000, 1]⟩
abbrev S100000x64 : Shape := ⟨2, ![100000, 64]⟩
abbrev S1x64 : Shape := ⟨2, ![1, 64]⟩

abbrev nBuf : Space → Nat
  | .hbm => 236
  | .vmem => 0
  | .smem => 0
  | _ => 0

abbrev hbmTy0_0 (i : Nat) : BufTy := match i % 128 with
  | 0 => ⟨S200000x128, .f32⟩
  | 1 => ⟨S100000x128, .f32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x64, .f32⟩
  | 15 => ⟨S64, .f32⟩
  | 16 => ⟨S200000x128, .f32⟩
  | 17 => ⟨S_, .f32⟩
  | 18 => ⟨S800000, .f32⟩
  | 19 => ⟨S_, .f32⟩
  | 20 => ⟨S200000, .f32⟩
  | 21 => ⟨S800000x1, .i32⟩
  | 22 => ⟨S200000, .f32⟩
  | 23 => ⟨S_, .f32⟩
  | 24 => ⟨S100000, .f32⟩
  | 25 => ⟨S800000x1, .i32⟩
  | 26 => ⟨S100000, .f32⟩
  | 27 => ⟨S_, .f32⟩
  | 28 => ⟨S200000, .f32⟩
  | 29 => ⟨S200000, .i1⟩
  | 30 => ⟨S_, .f32⟩
  | 31 => ⟨S200000, .f32⟩
  | 32 => ⟨S200000, .f32⟩
  | 33 => ⟨S200000, .f32⟩
  | 34 => ⟨S_, .f32⟩
  | 35 => ⟨S_, .f32⟩
  | 36 => ⟨S200000, .f32⟩
  | 37 => ⟨S200000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S800000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x1, .f32⟩
  | 78 => ⟨S800000x128, .f32⟩
  | 79 => ⟨S800000x128, .f32⟩
  | 80 => ⟨S_, .f32⟩
  | 81 => ⟨S100000x128, .f32⟩
  | 82 => ⟨S800000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S800000, .f32⟩
  | 92 => ⟨S_, .f32⟩
  | 93 => ⟨S200000, .f32⟩
  | 94 => ⟨S800000x1, .i32⟩
  | 95 => ⟨S200000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S200000x128, .f32⟩
  | 107 => ⟨S800000x1, .i32⟩
  | 108 => ⟨S200000x128, .f32⟩
  | 109 => ⟨S_, .f32⟩
  | 110 => ⟨S200000, .f32⟩
  | 111 => ⟨S200000, .f32⟩
  | 112 => ⟨S200000x1, .f32⟩
  | 113 => ⟨S200000x128, .f32⟩
  | 114 => ⟨S200000x128, .f32⟩
  | 115 => ⟨S200000x128, .f32⟩
  | 116 => ⟨S1x128, .f32⟩
  | 117 => ⟨S200000x128, .f32⟩
  | 118 => ⟨S200000x128, .f32⟩
  | 119 => ⟨S200000x128, .f32⟩
  | 120 => ⟨S200000x128, .f32⟩
  | 121 => ⟨S_, .f32⟩
  | 122 => ⟨S200000x128, .f32⟩
  | 123 => ⟨S200000x128, .f32⟩
  | 124 => ⟨S200000x128, .f32⟩
  | 125 => ⟨S_, .f32⟩
  | 126 => ⟨S800000, .f32⟩
  | 127 => ⟨S_, .f32⟩
  | _ => ⟨S200000x128, .f32⟩

abbrev hbmTy0_1 (i : Nat) : BufTy := match i % 128 with
  | 0 => ⟨S200000, .f32⟩
  | 1 => ⟨S800000x1, .i32⟩
  | 2 => ⟨S200000, .f32⟩
  | 3 => ⟨S_, .f32⟩
  | 4 => ⟨S100000, .f32⟩
  | 5 => ⟨S800000x1, .i32⟩
  | 6 => ⟨S100000, .f32⟩
  | 7 => ⟨S_, .f32⟩
  | 8 => ⟨S200000, .f32⟩
  | 9 => ⟨S200000, .i1⟩
  | 10 => ⟨S_, .f32⟩
  | 11 => ⟨S200000, .f32⟩
  | 12 => ⟨S200000, .f32⟩
  | 13 => ⟨S200000, .f32⟩
  | 14 => ⟨S_, .f32⟩
  | 15 => ⟨S_, .f32⟩
  | 16 => ⟨S200000, .f32⟩
  | 17 => ⟨S200000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .f32⟩
  | 71 => ⟨S800000, .f32⟩
  | 72 => ⟨S_, .f32⟩
  | 73 => ⟨S200000, .f32⟩
  | 74 => ⟨S800000x1, .i32⟩
  | 75 => ⟨S200000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S200000x128, .f32⟩
  | 87 => ⟨S800000x1, .i32⟩
  | 88 => ⟨S200000x128, .f32⟩
  | 89 => ⟨S_, .f32⟩
  | 90 => ⟨S200000, .f32⟩
  | 91 => ⟨S200000, .f32⟩
  | 92 => ⟨S200000x1, .f32⟩
  | 93 => ⟨S200000x128, .f32⟩
  | 94 => ⟨S200000x128, .f32⟩
  | 95 => ⟨S200000x128, .f32⟩
  | 96 => ⟨S1x128, .f32⟩
  | 97 => ⟨S200000x128, .f32⟩
  | 98 => ⟨S200000x128, .f32⟩
  | 99 => ⟨S200000x128, .f32⟩
  | 100 => ⟨S200000x128, .f32⟩
  | 101 => ⟨S_, .f32⟩
  | 102 => ⟨S200000x128, .f32⟩
  | 103 => ⟨S200000x128, .f32⟩
  | 104 => ⟨S100000x64, .f32⟩
  | 105 => ⟨S1x64, .f32⟩
  | 106 => ⟨S100000x64, .f32⟩
  | 107 => ⟨S100000x64, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_cst_5 : Ref sig .tc := ⟨.hbm, 38, rfl⟩
abbrev main_v14 : Ref sig .tc := ⟨.hbm, 39, rfl⟩
abbrev main_v15 : Ref sig .tc := ⟨.hbm, 40, rfl⟩
abbrev main_cst_6 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v19 : Ref sig .tc := ⟨.hbm, 48, rfl⟩
abbrev main_c : Ref sig .tc := ⟨.hbm, 49, rfl⟩
abbrev main_v20 : Ref sig .tc := ⟨.hbm, 50, rfl⟩
abbrev main_v21 : Ref sig .tc := ⟨.hbm, 51, rfl⟩
abbrev main_c_8 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_9 : Ref sig .tc := ⟨.hbm, 58, rfl⟩
abbrev main_v27 : Ref sig .tc := ⟨.hbm, 59, rfl⟩
abbrev main_v28 : Ref sig .tc := ⟨.hbm, 60, rfl⟩
abbrev main_c_10 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_11 : Ref sig .tc := ⟨.hbm, 68, rfl⟩
abbrev main_v35 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call2_cst : Ref sig .tc := ⟨.hbm, 87, rfl⟩
abbrev main_call2_v0 : Ref sig .tc := ⟨.hbm, 88, rfl⟩
abbrev main_v51 : Ref sig .tc := ⟨.hbm, 89, rfl⟩
abbrev main_cst_14 : Ref sig .tc := ⟨.hbm, 90, rfl⟩
abbrev main_v52 : Ref sig .tc := ⟨.hbm, 91, rfl⟩
abbrev main_cst_15 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_16 : Ref sig .tc := ⟨.hbm, 96, rfl⟩
abbrev main_v56 : Ref sig .tc := ⟨.hbm, 97, rfl⟩
abbrev main_v57 : Ref sig .tc := ⟨.hbm, 98, rfl⟩
abbrev main_c_17 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_18 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_19 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call3_cst : Ref sig .tc := ⟨.hbm, 121, rfl⟩
abbrev main_call3_v0 : Ref sig .tc := ⟨.hbm, 122, rfl⟩
abbrev main_v77 : Ref sig .tc := ⟨.hbm, 123, rfl⟩
abbrev main_v78 : Ref sig .tc := ⟨.hbm, 124, rfl⟩
abbrev main_cst_20 : Ref sig .tc := ⟨.hbm, 125, rfl⟩
abbrev main_v79 : Ref sig .tc := ⟨.hbm, 126, rfl⟩
abbrev main_cst_21 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_22 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_23 : Ref sig .tc := ⟨.hbm, 135, rfl⟩
abbrev main_v86 : Ref sig .tc := ⟨.hbm, 136, rfl⟩
abbrev main_v87 : Ref sig .tc := ⟨.hbm, 137, rfl⟩
abbrev main_cst_24 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_25 : Ref sig .tc := ⟨.hbm, 142, rfl⟩
abbrev main_call4_v0 : Ref sig .tc := ⟨.hbm, 143, rfl⟩
abbrev main_call4_v1 : Ref sig .tc := ⟨.hbm, 144, rfl⟩
abbrev main_v91 : Ref sig .tc := ⟨.hbm, 145, rfl⟩
abbrev main_cst_26 : Ref sig .tc := ⟨.hbm, 146, rfl⟩
abbrev main_v92 : Ref sig .tc := ⟨.hbm, 147, rfl⟩
abbrev main_v93 : Ref sig .tc := ⟨.hbm, 148, rfl⟩
abbrev main_cst_27 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_28 : Ref sig .tc := ⟨.hbm, 153, rfl⟩
abbrev main_call5_v0 : Ref sig .tc := ⟨.hbm, 154, rfl⟩
abbrev main_call5_v1 : Ref sig .tc := ⟨.hbm, 155, rfl⟩
abbrev main_v97 : Ref sig .tc := ⟨.hbm, 156, rfl⟩
abbrev main_c_29 : Ref sig .tc := ⟨.hbm, 157, rfl⟩
abbrev main_v98 : Ref sig .tc := ⟨.hbm, 158, rfl⟩
abbrev main_v99 : Ref sig .tc := ⟨.hbm, 159, rfl⟩
abbrev main_c_30 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_c_31 : Ref sig .tc := ⟨.hbm, 166, rfl⟩
abbrev main_v105 : Ref sig .tc := ⟨.hbm, 167, rfl⟩
abbrev main_v106 : Ref sig .tc := ⟨.hbm, 168, rfl⟩
abbrev main_c_32 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_c_33 : Ref sig .tc := ⟨.hbm, 176, rfl⟩
abbrev main_v113 : Ref sig .tc := ⟨.hbm, 177, rfl⟩
abbrev main_v114 : Ref sig .tc := ⟨.hbm, 178, rfl⟩
abbrev main_c_34 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_35 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_call6_cst : Ref sig .tc := ⟨.hbm, 195, rfl⟩
abbrev main_call6_v0 : Ref sig .tc := ⟨.hbm, 196, rfl⟩
abbrev main_v129 : Ref sig .tc := ⟨.hbm, 197, rfl⟩
abbrev main_cst_36 : Ref sig .tc := ⟨.hbm, 198, rfl⟩
abbrev main_v130 : Ref sig .tc := ⟨.hbm, 199, rfl⟩
abbrev main_cst_37 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_c_38 : Ref sig .tc := ⟨.hbm, 204, rfl⟩
abbrev main_v134 : Ref sig .tc := ⟨.hbm, 205, rfl⟩
abbrev main_v135 : Ref sig .tc := ⟨.hbm, 206, rfl⟩
abbrev main_c_39 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_40 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_41 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_call7_cst : Ref sig .tc := ⟨.hbm, 229, rfl⟩
abbrev main_call7_v0 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S_S100000 : S_.BroadcastsInDim S100000 (![] : Fin 0 → Fin S100000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S200000x128_S128x128_S200000x128_1_0_0_1_n_n_wf : DotDims.WF S200000x128 S128x128 S200000x128 [1] [0] [0] [1] [] []
  scatter_S200000_S800000x1_S800000_n_0_0_1_wf : ScatterDims.WF S200000 S800000x1 S800000 [] [0] [0] 1
  scatter_S100000_S800000x1_S800000_n_0_0_1_wf : ScatterDims.WF S100000 S800000x1 S800000 [] [0] [0] 1
  gather_S200000_S800000x1_S800000_n_0_n_n_0_1_1_wf : GatherDims.WF S200000 S800000x1 S800000 [] [0] [] [0] [] 1 ![1]
  gather_S100000_S800000x1_S800000_n_0_n_n_0_1_1_wf : GatherDims.WF S100000 S800000x1 S800000 [] [0] [] [0] [] 1 ![1]
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  dot_S100000x128_S128x64_S100000x64_1_0_0_1_n_n_wf : DotDims.WF S100000x128 S128x64 S100000x64 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostStages.lean ====
/-
  The sparse parts of the network, which both programs run as the same host operations around the dense stages.

  With edges e = (ret e, orig e), e < 800000, given by the two index arrays (an index below zero is first wrapped by
  the axis' length):
  * `degRet`, `degOrig`: how many edges name each row of the 200000-row side, and of the 100000-row side;
  * `meanAgg`: each row of the 200000-row side receives the sum of the source features `x1 (orig e)` over its edges,
    divided by max(degRet, 1): the mean over the row's neighbours;
  * `normAgg`: each row of the 100000-row side receives the sum over its edges of `h (ret e) · s (ret e) · d (orig e)`,
    where s and d are the inverse square roots of the two degrees (zero where the degree is zero): the symmetric
    normalisation. It is stated over the degree arrays `dR`, `dO` as they were computed once, before stage one.
-/
import proofs.«149794_j7164005450261_1_alg».proof.Proof.Gen.KernelIdeal

noncomputable section

namespace Cert.KernelIdeal.HostStages

open Cert.KernelIdeal Cert.KernelIdeal.Gen Idealize.ShloMosaic

variable {F : FTy → Type} [FloatOps F]

/-- The number of edges whose first index is each row of the 200000-row side. -/
def degRet (i2 : (⟨S800000, .i32⟩ : BufTy).Contents (Elt F)) : (⟨S200000, .f32⟩ : BufTy).Contents (Elt F) :=
  Host.scatterAdd scatter_S200000_S800000x1_S800000_n_0_0_1 (broadcastInDim S200000 ![] bcast_S_S200000 (constant S_ .f32 0x00000000#32)) (broadcastInDim S800000x1 ![0] bcast_S800000_S800000x1_0 i2) (broadcastInDim S800000 ![] bcast_S_S800000 (constant S_ .f32 0x3F800000#32))

/-- The number of edges whose second index is each row of the 100000-row side. -/
def degOrig (i3 : (⟨S800000, .i32⟩ : BufTy).Contents (Elt F)) : (⟨S100000, .f32⟩ : BufTy).Contents (Elt F) :=
  Host.scatterAdd scatter_S100000_S800000x1_S800000_n_0_0_1 (broadcastInDim S100000 ![] bcast_S_S100000 (constant S_ .f32 0x00000000#32)) (broadcastInDim S800000x1 ![0] bcast_S800000_S800000x1_0 i3) (broadcastInDim S800000 ![] bcast_S_S800000 (constant S_ .f32 0x3F800000#32))

/-- An index into the 200000-row side, a negative one wrapped by the axis' length. -/
def wrapRet (i2 : (⟨S800000, .i32⟩ : BufTy).Contents (Elt F)) : (⟨S800000, .i32⟩ : BufTy).Contents (Elt F) :=
  select (cmpi .slt i2 (broadcastInDim S800000 ![] bcast_S_S800000 (constantI S_ 32 0#32))) (addi i2 (broadcastInDim S800000 ![] bcast_S_S800000 (constantI S_ 32 200000#32))) i2

/-- An index into the 100000-row side, a negative one wrapped by the axis' length. -/
def wrapOrig (i3 : (⟨S800000, .i32⟩ : BufTy).Contents (Elt F)) : (⟨S800000, .i32⟩ : BufTy).Contents (Elt F) :=
  select (cmpi .slt i3 (broadcastInDim S800000 ![] bcast_S_S800000 (constantI S_ 32 0#32))) (addi i3 (broadcastInDim S800000 ![] bcast_S_S800000 (constantI S_ 32 100000#32))) i3

/-- The mean of the neighbours' features, row by row of the 200000-row side. -/
def meanAgg (x1 : (⟨S100000x128, .f32⟩ : BufTy).Contents (Elt F)) (i2 i3 : (⟨S800000, .i32⟩ : BufTy).Contents (Elt F)) : (⟨S200000x128, .f32⟩ : BufTy).Contents (Elt F) :=
  Host.divf (Host.scatterAdd scatter_S200000x128_S800000x1_S800000x128_1_0_0_1 (broadcastInDim S200000x128 ![] bcast_S_S200000x128 (constant S_ .f32 0x00000000#32)) (broadcastInDim S800000x1 ![0] bcast_S800000_S800000x1_0 i2) (Host.gather gather_S100000x128_S800000x1_S800000x128_1_0_n_n_0_1_1128 x1 (broadcastInDim S800000x1 ![0] bcast_S800000_S800000x1_0 (wrapOrig i3)))) (broadcastInDim S200000x128 ![0, 1] bcast_S200000x1_S200000x128_0_1 (broadcastInDim S200000x1 ![0] bcast_S200000_S200000x1_0 (maximumf (degRet i2) (broadcastInDim S200000 ![] bcast_S_S200000 (constant S_ .f32 0x3F800000#32)))))

/-- The symmetrically normalised sum of the projected features, row by row of the 100000-row side. -/
def normAgg (h : (⟨S200000x128, .f32⟩ : BufTy).Contents (Elt F)) (dR : (⟨S200000, .f32⟩ : BufTy).Contents (Elt F)) (dO : (⟨S100000, .f32⟩ : BufTy).Contents (Elt F))
    (i2 i3 : (⟨S800000, .i32⟩ : BufTy).Contents (Elt F)) : (⟨S100000x128, .f32⟩ : BufTy).Contents (Elt F) :=
  Host.scatterAdd scatter_S100000x128_S800000x1_S800000x128_1_0_0_1 (broadcastInDim S100000x128 ![] bcast_S_S100000x128 (constant S_ .f32 0x00000000#32)) (broadcastInDim S800000x1 ![0] bcast_S800000_S800000x1_0 i3) (mulf (Host.gather gather_S200000x128_S800000x1_S800000x128_1_0_n_n_0_1_1128 h (broadcastInDim S800000x1 ![0] bcast_S800000_S800000x1_0 (wrapRet i2))) (broadcastInDim S800000x128 ![0, 1] bcast_S800000x1_S800000x128_0_1 (broadcastInDim S800000x1 ![0] bcast_S800000_S800000x1_0 (mulf (Host.gather gather_S200000_S800000x1_S800000_n_0_n_n_0_1_1 (select (cmpf .ogt dR (broadcastInDim S200000 ![] bcast_S_S200000 (constant S_ .f32 0x00000000#32))) (Host.rsqrt (maximumf dR (broadcastInDim S200000 ![] bcast_S_S200000 (constant S_ .f32 0x3F800000#32)))) (broadcastInDim S200000 ![] bcast_S_S200000 (id (constant S_ .f32 0x00000000#32)))) (broadcastInDim S800000x1 ![0] bcast_S800000_S800000x1_0 (wrapRet i2))) (Host.gather gather_S100000_S800000x1_S800000_n_0_n_n_0_1_1 (select (cmpf .ogt dO (broadcastInDim S100000 ![] bcast_S_S100000 (constant S_ .f32 0x00000000#32))) (Host.rsqrt (maximumf dO (broadcastInDim S100000 ![] bcast_S_S100000 (constant S_ .f32 0x3F800000#32)))) (broadcastInDim S100000 ![] bcast_S_S100000 (id (constant S_ .f32 0x00000000#32)))) (broadcastInDim S800000x1 ![0] bcast_S800000_S800000x1_0 (wrapOrig i3)))))))

end Cert.KernelIdeal.HostStages

end
-- ==== Proof.HostRun.lean ====
/-
  What the arrays hold where each dense stage is entered.

  Before the first stage the host operations have computed the two degree arrays and the mean aggregate, and have
  written none of the arguments; between the stages they compute the normalised aggregate from the first stage's
  result, the degree arrays and the two index arrays, and again write no argument.
-/
import proofs.«149794_j7164005450261_1_alg».proof.Proof.Gen.KernelIdeal.Frame
import proofs.«149794_j7164005450261_1_alg».proof.Proof.HostStages
import Idealize.ShloMosaic.Lib.StableHlo.Run

set_option maxRecDepth 16384

noncomputable section

namespace Cert.KernelIdeal.HostRun

open Cert.KernelIdeal Cert.KernelIdeal.Gen Cert.KernelIdeal.HostStages
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Where the first stage is entered -/

set_option maxHeartbeats 4000000 in
/-- The first stage's row operand is the mean aggregate of the arguments. -/
theorem entry0_agg (c : Dev nD) :
    W1 m ρ c (Proc.devRef .tc main_v21) = meanAgg (m ((c : Thread nD τ).loc main_arg1)) (m ((c : Thread nD τ).loc main_arg2)) (m ((c : Thread nD τ).loc main_arg3)) := by
  show StableHlo.after hostOps0 (W0 m ρ c) (Proc.devRef .tc main_v21) = _
  unfold hostOps0
  after_results_simp
  rfl

/-- The degree array of the 200000-row side, as computed before the first stage. -/
theorem entry0_degRet (c : Dev nD) :
    W1 m ρ c (Proc.devRef .tc main_v3) = degRet (m ((c : Thread nD τ).loc main_arg2)) := by
  show StableHlo.after hostOps0 (W0 m ρ c) (Proc.devRef .tc main_v3) = _
  unfold hostOps0
  after_results
  rfl

/-- The degree array of the 100000-row side, as computed before the first stage. -/
theorem entry0_degOrig (c : Dev nD) :
    W1 m ρ c (Proc.devRef .tc main_v6) = degOrig (m ((c : Thread nD τ).loc main_arg3)) := by
  show StableHlo.after hostOps0 (W0 m ρ c) (Proc.devRef .tc main_v6) = _
  unfold hostOps0
  after_results
  rfl

/-- Argument 0 is as launched where the first stage is entered. -/
theorem entry0_arg0 (c : Dev nD) : W1 m ρ c (Proc.devRef .tc main_arg0) = (m ((c : Thread nD τ).loc main_arg0)) := by
  show StableHlo.after hostOps0 (W0 m ρ c) (Proc.devRef .tc main_arg0) = _
  unfold hostOps0
  after_results

/-- Argument 2 is as launched where the first stage is entered. -/
theorem entry0_arg2 (c : Dev nD) : W1 m ρ c (Proc.devRef .tc main_arg2) = (m ((c : Thread nD τ).loc main_arg2)) := by
  show StableHlo.after hostOps0 (W0 m ρ c) (Proc.devRef .tc main_arg2) = _
  unfold hostOps0
  after_results

/-- Argument 3 is as launched where the first stage is entered. -/
theorem entry0_arg3 (c : Dev nD) : W1 m ρ c (Proc.devRef .tc main_arg3) = (m ((c : Thread nD τ).loc main_arg3)) := by
  show StableHlo.after hostOps0 (W0 m ρ c) (Proc.devRef .tc main_arg3) = _
  unfold hostOps0
  after_results

/-- Argument 6 is as launched where the first stage is entered. -/
theorem entry0_arg6 (c : Dev nD) : W1 m ρ c (Proc.devRef .tc main_arg6) = (m ((c : Thread nD τ).loc main_arg6)) := by
  show StableHlo.after hostOps0 (W0 m ρ c) (Proc.devRef .tc main_arg6) = _
  unfold hostOps0
  after_results

/-- Argument 7 is as launched where the first stage is entered. -/
theorem entry0_arg7 (c : Dev nD) : W1 m ρ c (Proc.devRef .tc main_arg7) = (m ((c : Thread nD τ).loc main_arg7)) := by
  show StableHlo.after hostOps0 (W0 m ρ c) (Proc.devRef .tc main_arg7) = _
  unfold hostOps0
  after_results

/-- Argument 8 is as launched where the first stage is entered. -/
theorem entry0_arg8 (c : Dev nD) : W1 m ρ c (Proc.devRef .tc main_arg8) = (m ((c : Thread nD τ).loc main_arg8)) := by
  show StableHlo.after hostOps0 (W0 m ρ c) (Proc.devRef .tc main_arg8) = _
  unfold hostOps0
  after_results

/-- Argument 9 is as launched where the first stage is entered. -/
theorem entry0_arg9 (c : Dev nD) : W1 m ρ c (Proc.devRef .tc main_arg9) = (m ((c : Thread nD τ).loc main_arg9)) := by
  show StableHlo.after hostOps0 (W0 m ρ c) (Proc.devRef .tc main_arg9) = _
  unfold hostOps0
  after_results

/-! ## Where the second stage is entered -/

set_option maxHeartbeats 8000000 in
/-- The second stage's row operand is the normalised aggregate of the first stage's result array, the degree
    arrays and the index arrays as the first stage left them. -/
theorem entry1_agg_of_exit0 (c : Dev nD) :
    W7 m ρ c (Proc.devRef .tc main_v62)
      = normAgg (W2 m ρ c (Proc.devRef .tc main_v22)) (W2 m ρ c (Proc.devRef .tc main_v3)) (W2 m ρ c (Proc.devRef .tc main_v6))
          (W2 m ρ c (Proc.devRef .tc main_arg2)) (W2 m ρ c (Proc.devRef .tc main_arg3)) := by
  show StableHlo.after hostOps1_4 (StableHlo.after hostOps1_3 (StableHlo.after hostOps1_2 (StableHlo.after hostOps1_1
    (StableHlo.after hostOps1 (W2 m ρ c))))) (Proc.devRef .tc main_v62) = _
  unfold hostOps1_4 hostOps1_3 hostOps1_2 hostOps1_1 hostOps1
  after_results_simp
  rfl

/-- The first stage writes only its result array: the degree arrays and the index arrays are as it found them. -/
theorem exit0_degRet (c : Dev nD) : W2 m ρ c (Proc.devRef .tc main_v3) = degRet (m ((c : Thread nD τ).loc main_arg2)) :=
  (W2_of_ne m ρ c main_v3 (by decide)).trans (entry0_degRet m ρ c)
theorem exit0_degOrig (c : Dev nD) : W2 m ρ c (Proc.devRef .tc main_v6) = degOrig (m ((c : Thread nD τ).loc main_arg3)) :=
  (W2_of_ne m ρ c main_v6 (by decide)).trans (entry0_degOrig m ρ c)
theorem exit0_arg2 (c : Dev nD) : W2 m ρ c (Proc.devRef .tc main_arg2) = (m ((c : Thread nD τ).loc main_arg2)) :=
  (W2_of_ne m ρ c main_arg2 (by decide)).trans (entry0_arg2 m ρ c)
theorem exit0_arg3 (c : Dev nD) : W2 m ρ c (Proc.devRef .tc main_arg3) = (m ((c : Thread nD τ).loc main_arg3)) :=
  (W2_of_ne m ρ c main_arg3 (by decide)).trans (entry0_arg3 m ρ c)

/-- The second stage's row operand, from the first stage's result array and the arguments. -/
theorem entry1_agg (c : Dev nD) :
    W7 m ρ c (Proc.devRef .tc main_v62)
      = normAgg (W2 m ρ c (Proc.devRef .tc main_v22)) (degRet (m ((c : Thread nD τ).loc main_arg2))) (degOrig (m ((c : Thread nD τ).loc main_arg3)))
          (m ((c : Thread nD τ).loc main_arg2)) (m ((c : Thread nD τ).loc main_arg3)) := by
  rw [entry1_agg_of_exit0, exit0_degRet, exit0_degOrig, exit0_arg2, exit0_arg3]

/-- Argument 10, an input array of the second stage, is as launched where that stage is entered: the stage leaves it
    as it found it, and it ends as launched. -/
theorem entry1_arg10 (c : Dev nD) : W7 m ρ c (Proc.devRef .tc main_arg10) = (m ((c : Thread nD τ).loc main_arg10)) :=
  ((W8_arr m ρ c 1).trans (((dat1 (V7 m ρ) c).arrAt_in 1 rfl _).trans (A_eq1 (V7 m ρ) c 1))).symm.trans (W8_main_arg10 m ρ c)

/-- Argument 14, an input array of the second stage, is as launched where that stage is entered: the stage leaves it
    as it found it, and it ends as launched. -/
theorem entry1_arg14 (c : Dev nD) : W7 m ρ c (Proc.devRef .tc main_arg14) = (m ((c : Thread nD τ).loc main_arg14)) :=
  ((W8_arr m ρ c 2).trans (((dat1 (V7 m ρ) c).arrAt_in 2 rfl _).trans (A_eq1 (V7 m ρ) c 2))).symm.trans (W8_main_arg14 m ρ c)

/-- Argument 15, an input array of the second stage, is as launched where that stage is entered: the stage leaves it
    as it found it, and it ends as launched. -/
theorem entry1_arg15 (c : Dev nD) : W7 m ρ c (Proc.devRef .tc main_arg15) = (m ((c : Thread nD τ).loc main_arg15)) :=
  ((W8_arr m ρ c 3).trans (((dat1 (V7 m ρ) c).arrAt_in 3 rfl _).trans (A_eq1 (V7 m ρ) c 3))).symm.trans (W8_main_arg15 m ρ c)

end Cert.KernelIdeal.HostRun

end
-- ==== Proof.Spec.lean ====
/-
  The two dense stages of the network, as functions of whole arrays, index by index, over the extended reals.

  Stage one (rows of the 200000-row side): from the mean-aggregated neighbour features `agg` and the rows' own
  features `x`, the hidden activation of row `p` in channel `j` is
      hidden p j = max ((∑ₖ agg p k · Wl k j + bl j) + ∑ₖ x p k · Wr k j) 0,
  and the stage's result is its projection `∑ⱼ hidden p j · Wg j q`.

  Stage two (rows of the 100000-row side): from the normalised aggregate `agg2`,
      readout p q = ∑ⱼ max (agg2 p j + bg j) 0 · Wout j q + bout q.

  The zero the maxima compare with is kept as the float word `0x00000000` read at the ideal instance: both programs
  carry the same word, so it is never evaluated.
-/
import Idealize.ShloMosaic.PureOps.Ideal.Laws
import Idealize.ShloMosaic.Lib.ValueIdx

noncomputable section

open scoped BigOperators

namespace Cert.Spec

open Idealize.ShloMosaic Idealize.ShloMosaic.ValueIdx

/-- The float word zero at the ideal instance. -/
abbrev zeroF : EReal := Ideal.ofBits .f32 0x00000000#32

/-- The hidden activation of row `p`, channel `j`. -/
def hidden (agg x : FVec Ideal ⟨2, ![200000, 128]⟩ .f32) (Wl : FVec Ideal ⟨2, ![128, 128]⟩ .f32)
    (bl : FVec Ideal ⟨1, ![128]⟩ .f32) (Wr : FVec Ideal ⟨2, ![128, 128]⟩ .f32) (p : Fin 200000) (j : Fin 128) : EReal :=
  max (((∑ k : Fin 128, agg (ix2 p k) * Wl (ix2 k j)) + bl (ix1 j)) + ∑ k : Fin 128, x (ix2 p k) * Wr (ix2 k j)) zeroF

/-- Stage one: the hidden activations projected by `Wg`. -/
def projected (agg x : FVec Ideal ⟨2, ![200000, 128]⟩ .f32) (Wl : FVec Ideal ⟨2, ![128, 128]⟩ .f32)
    (bl : FVec Ideal ⟨1, ![128]⟩ .f32) (Wr Wg : FVec Ideal ⟨2, ![128, 128]⟩ .f32) : FVec Ideal ⟨2, ![200000, 128]⟩ .f32 :=
  fun i => ∑ j : Fin 128, hidden agg x Wl bl Wr (i 0) j * Wg (ix2 j (i 1))

/-- Stage two: bias, rectifier, readout matrix, readout bias. -/
def readout (agg2 : FVec Ideal ⟨2, ![100000, 128]⟩ .f32) (bg : FVec Ideal ⟨1, ![128]⟩ .f32)
    (Wout : FVec Ideal ⟨2, ![128, 64]⟩ .f32) (bout : FVec Ideal ⟨1, ![64]⟩ .f32) : FVec Ideal ⟨2, ![100000, 64]⟩ .f32 :=
  fun i => (∑ j : Fin 128, max (agg2 (ix2 (i 0) j) + bg (ix1 j)) zeroF * Wout (ix2 j (i 1))) + bout (ix1 (i 1))

end Cert.Spec

end
-- ==== Proof.LibDot.lean ====
/-
  A matrix product read at an entry.

  For dimension numbers that contract the left operand's second axis with the right operand's first and have no batch
  axes — an `[N, K]` by `[K, M]` product — the sum over the contraction index that the ideal instance gives for an
  entry `(p, q)` of the result is the textbook sum `∑ₖ l p k · r k q` over `k : Fin K`. The contraction index set has
  one axis, so it is re-indexed by its one coordinate; the operand indices at `(p, q)` and `k` are then `(p, k)` and
  `(k, q)`, read off the dimension numbers' lists.
-/
import Idealize.ShloMosaic.PureOps.Ideal.Laws
import Idealize.ShloMosaic.Lib.ValueIdx

noncomputable section

open scoped BigOperators

namespace Cert.LibDot

open Idealize.ShloMosaic Idealize.ShloMosaic.ValueIdx

variable {N K M : Nat} (D : DotDims ⟨2, ![N, K]⟩ ⟨2, ![K, M]⟩ ⟨2, ![N, M]⟩)

/-- The contraction index set of such a product has one axis … -/
theorem contr_rank (hlc : D.lhsContracting = [1]) : D.contr.rank = 1 := by
  rw [D.rank_contr, hlc]; rfl

/-- … of extent `K`. -/
theorem contr_size (hlc : D.lhsContracting = [1]) :
    D.contr.size ⟨0, by rw [contr_rank D hlc]; exact Nat.one_pos⟩ = K := by
  rw [D.size_contr 0 (by rw [hlc]; exact Nat.one_pos)]
  have : D.lhsContracting[0]'(by rw [hlc]; exact Nat.one_pos) = (1 : Fin 2) := by simp [hlc]
  rw [this]; rfl

/-- A coordinate of `ix2 p q` at an axis known to be the first. -/
theorem ix2_val_zero {n0 n1 : Nat} (p : Fin n0) (q : Fin n1) (n : Nat) (h : n < 2) (e : n = 0) :
    ((ix2 p q : (⟨2, ![n0, n1]⟩ : Shape).Idx) ⟨n, h⟩).val = p.val := by subst e; rfl

/-- A coordinate of `ix2 p q` at an axis known to be the second. -/
theorem ix2_val_one {n0 n1 : Nat} (p : Fin n0) (q : Fin n1) (n : Nat) (h : n < 2) (e : n = 1) :
    ((ix2 p q : (⟨2, ![n0, n1]⟩ : Shape).Idx) ⟨n, h⟩).val = q.val := by subst e; rfl

/-- The left operand's row at result entry `(p, q)` is `p`. -/
theorem lhs_row (hlb : D.lhsBatch = []) (hln : D.lhsNonContracting = [0]) (p : Fin N) (q : Fin M) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact ix2_val_zero p q _ _ (by simp [hlb, hln])

/-- The right operand's column at result entry `(p, q)` is `q`. -/
theorem rhs_col (hlb : D.lhsBatch = []) (hln : D.lhsNonContracting = [0]) (hrb : D.rhsBatch = []) (hrn : D.rhsNonContracting = [1])
    (p : Fin N) (q : Fin M) (k : D.contr.Idx) :
    (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact ix2_val_one p q _ _ (by simp [hlb, hln, hrn])

/-- THE PRODUCT AT AN ENTRY: the contraction sum is `∑ₖ l (p, k) · r (k, q)`. -/
theorem sum_contr (hlc : D.lhsContracting = [1]) (hrc : D.rhsContracting = [0]) (hlb : D.lhsBatch = [])
    (hln : D.lhsNonContracting = [0]) (hrb : D.rhsBatch = []) (hrn : D.rhsNonContracting = [1])
    (l : (⟨2, ![N, K]⟩ : Shape).Idx → EReal) (r : (⟨2, ![K, M]⟩ : Shape).Idx → EReal) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 p q) ((contrEquiv1 D K (contr_rank D hlc) (contr_size D hlc)).symm k) = ix2 p k :=
    funext fun a => Fin.ext (by
      match a with
      | ⟨0, _⟩ => exact lhs_row D hlb hln p q _
      | ⟨1, _⟩ => exact (D.lhsIdx_val_of_single hlc _ _).trans hk)
  have er : D.rhsIdx (ix2 p q) ((contrEquiv1 D K (contr_rank D hlc) (contr_size D hlc)).symm k) = ix2 k q :=
    funext fun a => Fin.ext (by
      match a with
      | ⟨0, _⟩ => exact (D.rhsIdx_val_of_single hrc _ _).trans hk
      | ⟨1, _⟩ => exact rhs_col D hlb hln hrb hrn p q _)
  rw [el, er]

/-- A `tpu.matmul` into the zero accumulator, at an entry. -/
theorem matmul_zero_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact sum_contr D hlc hrc hlb hln hrb hrn l r p q

/-- The host's `dot_general`, at an entry. -/
theorem dotGeneral_apply (hlc : D.lhsContracting = [1]) (hrc : D.rhsContracting = [0]) (hlb : D.lhsBatch = [])
    (hln : D.lhsNonContracting = [0]) (hrb : D.rhsBatch = []) (hrn : D.rhsNonContracting = [1])
    (prec : Option ContractPrecision) (l : FVec Ideal ⟨2, ![N, K]⟩ .f32) (r : FVec Ideal ⟨2, ![K, M]⟩ .f32) (p : Fin N) (q : Fin M) :
    Host.dotGeneral D prec l r (ix2 p q) = ∑ k : Fin K, l (ix2 p k) * r (ix2 k q) := by
  simp only [Host.dotGeneral]
  rw [Ideal.dotGeneral_apply]
  exact sum_contr D hlc hrc hlb hln hrb hrn l r p q

end Cert.LibDot

end
-- ==== Proof.StageOne.lean ====
import proofs.«149794_j7164005450261_1_alg».proof.Proof.Gen.KernelIdeal.Frame
import proofs.«149794_j7164005450261_1_alg».proof.Proof.Spec
import proofs.«149794_j7164005450261_1_alg».proof.Proof.LibDot
import Idealize.ShloMosaic.Lib.Pipeline.Value
import Idealize.ShloMosaic.Lib.ValueLayout

set_option maxRecDepth 16384

noncomputable section

namespace Cert.KernelIdeal.StageOne

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The block computation at an entry -/

/-- A matrix-unit product into the zero accumulator, at an entry, whatever float types the operands were narrowed to:
    at the ideal instance every float type is the extended reals, so it is the textbook sum. -/
theorem matmul_zero_at {N K M : Nat} {φ₁ φ₂ : FTy} (D : DotDims ⟨2, ![N, K]⟩ ⟨2, ![K, M]⟩ ⟨2, ![N, M]⟩)
    (hlc : D.lhsContracting = [1]) (hrc : D.rhsContracting = [0]) (hlb : D.lhsBatch = []) (hln : D.lhsNonContracting = [0])
    (hrb : D.rhsBatch = []) (hrn : D.rhsNonContracting = [1]) (prec : Option ContractPrecision)
    (l : FVec Ideal ⟨2, ![N, K]⟩ φ₁) (r : FVec Ideal ⟨2, ![K, M]⟩ φ₂) (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact Cert.LibDot.sum_contr D hlc hrc hlb hln hrb hrn l r p q

/-- The bias vector, given a leading unit axis and repeated down the block's rows, reads at `(y, j)` as its entry `j`. -/
theorem bias_at (b : FVec Ideal S128 .f32) (y : Fin 8000) (j : Fin 128) :
    broadcastTo S8000x128 (shapeCast S1x128 b shapeCasts_S128_S1x128) broadcasts_S1x128_S8000x128 (ix2 y j) = b (ix1 j) :=
  (broadcastTo_1b_ab_apply _ _ y j).trans (shapeCast_a_1a_apply b _ 0 j)

/-- THE BLOCK COMPUTATION AT AN ENTRY. With row block `a` of the aggregate, row block `x` of the features, the two
    weight matrices `Wl`, `Wr`, the bias `bl` and the projection `Wg`, entry `(y, q)` of what the body stores is
    `∑ⱼ max ((∑ₖ a y k · Wl k j + ∑ₖ x y k · Wr k j) + bl j) 0 · Wg j q`: the narrowing of the operands is the identity at
    the ideal instance, and the bias is added after the second product. -/
theorem pay_at (a x : FVec Ideal S8000x128 .f32) (Wl : FVec Ideal S128x128 .f32) (bl : FVec Ideal S128 .f32)
    (Wr Wg : FVec Ideal S128x128 .f32) (y : Fin 8000) (q : Fin 128) :
    k0_pay1 (F := Ideal) a x Wl Wr Wg bl (ix2 y q)
      = ∑ j : Fin 128, max (((∑ k : Fin 128, a (ix2 y k) * Wl (ix2 k j)) + ∑ k : Fin 128, x (ix2 y k) * Wr (ix2 k j)) + bl (ix1 j))
          Cert.Spec.zeroF * Wg (ix2 j q) := by
  unfold k0_pay1
  refine (matmul_zero_at _ rfl rfl rfl rfl rfl rfl none _ _ y q).trans ?_
  refine Finset.sum_congr rfl fun j _ => ?_
  rw [truncf_apply, truncf_apply, maximumf_apply, addf_apply, addf_apply, broadcast_apply, bias_at,
    matmul_zero_at _ rfl rfl rfl rfl rfl rfl none _ _ y j, matmul_zero_at _ rfl rfl rfl rfl rfl rfl none _ _ y j]
  simp only [truncf_apply, shapeCast_self]
  rfl

/-- The same entry, read off the whole arrays: if rows `y` of the two row blocks are rows `p` of the arrays and the other
    four blocks are the whole weight arrays, the stored entry `(y, q)` is stage one's entry `(p, q)`. The body adds the
    bias after the second product and the specification before it; addition of extended reals is commutative and
    associative. -/
theorem block_at (a x : FVec Ideal S8000x128 .f32) (wl : FVec Ideal S128x128 .f32) (b : FVec Ideal S128 .f32)
    (wr wg : FVec Ideal S128x128 .f32)
    (A X : FVec Ideal ⟨2, ![200000, 128]⟩ .f32) (Wl : FVec Ideal ⟨2, ![128, 128]⟩ .f32) (bl : FVec Ideal ⟨1, ![128]⟩ .f32)
    (Wr Wg : FVec Ideal ⟨2, ![128, 128]⟩ .f32) (y : Fin 8000) (q : Fin 128) (p : Fin 200000)
    (ha : ∀ k : Fin 128, a (ix2 y k) = A (ix2 p k)) (hx : ∀ k : Fin 128, x (ix2 y k) = X (ix2 p k))
    (hwl : wl = Wl) (hb : b = bl) (hwr : wr = Wr) (hwg : wg = Wg) :
    k0_pay1 (F := Ideal) a x wl wr wg b (ix2 y q) = Cert.Spec.projected A X Wl bl Wr Wg (ix2 p q) := by
  subst hwl hb hwr hwg
  rw [pay_at]
  show _ = ∑ j : Fin 128, Cert.Spec.hidden A X wl b wr p j * wg (ix2 j q)
  refine Finset.sum_congr rfl fun j _ => ?_
  unfold Cert.Spec.hidden
  simp only [ha, hx]
  rw [add_right_comm]

/-! ## From blocks to the array -/

theorem zero_offsets₂ : (![0, 0] : Fin 2 → Nat) = fun _ => 0 := funext fun a => by fin_cases a <;> rfl

theorem zero_offsets₁ : (![0] : Fin 1 → Nat) = fun _ => 0 := funext fun a => by fin_cases a; rfl

/-- The printed index maps over the 25 grid points: the two row operands and the result move to row block `t` at point
    `t`; the weight matrices and the bias stay at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem grid_points : cfg0.N = 25 := by decide

variable (V : (c : Dev nD) → (b : Ref sig .tc) → Buf (Elt Ideal) ((c : Thread nD τ).loc b))

/-- WHAT POINT `t` WRITES BACK is block `t` of stage one of the arrays the call was entered with. -/
theorem point_writes_row_block (c : Dev nD) (t : Fin cfg0.N) :
    (dat0 (F := Ideal) V c).flushed 6 t = ((cfg0.win 6).blk t).view.read (Elt Ideal)
      (Cert.Spec.projected (V c main_v21) (V c main_arg0) (V c main_arg6) (V c main_arg7) (V c main_arg8) (V c main_arg9)) := by
  show (cfg0.win 6).cut (grid0.coords t) ((dat0 (F := Ideal) V c).after 6 t) = _
  rw [after0_6]
  unfold out0_6
  rw [View.canon_unit_zero zero_offsets₂]
  simp only [View.ld_unit_zero (S := S8000x128) zero_offsets₂, View.ld_unit_zero (S := S128x128) zero_offsets₂,
    View.ld_unit_zero (S := S128) zero_offsets₁]
  obtain ⟨r00, r01, r10, r11, w20, w21, w30, w40, w41, w50, w51, o0, o1⟩ := index_maps t
  have ht : t.val < 25 := Nat.lt_of_lt_of_eq t.isLt grid_points
  funext j
  have hj0 : (j 0).val < 8000 := (j 0).isLt
  have hj1 : (j 1).val < 128 := (j 1).isLt
  have ej : (cfg0.win 6).xinj (grid0.coords t) j = ix2 (⟨(j 0).val, hj0⟩ : Fin 8000) (⟨(j 1).val, hj1⟩ : Fin 128) :=
    funext fun a => match a with | ⟨0, _⟩ => rfl | ⟨1, _⟩ => rfl
  have ei : ((cfg0.win 6).blk t).view.emb j
      = ix2 (⟨t.val * 8000 + (j 0).val, by omega⟩ : Fin 200000) (⟨(j 1).val, hj1⟩ : Fin 128) := by
    funext a; apply Fin.ext
    match a with
    | ⟨0, _⟩ => show win0_6.index t (0 : Fin 2) * 8000 + 1 * (j 0).val = t.val * 8000 + (j 0).val; omega
    | ⟨1, _⟩ => show win0_6.index t (1 : Fin 2) * 128 + 1 * (j 1).val = (j 1).val; omega
  show k0_pay1 (F := Ideal) (iblk0 V c 0 t) (iblk0 V c 1 t) (iblk0 V c 2 t) (iblk0 V c 4 t) (iblk0 V c 5 t) (iblk0 V c 3 t)
      ((cfg0.win 6).xinj (grid0.coords t) j)
    = Cert.Spec.projected (V c main_v21) (V c main_arg0) (V c main_arg6) (V c main_arg7) (V c main_arg8) (V c main_arg9)
      (((cfg0.win 6).blk t).view.emb j)
  rw [ej, ei]
  refine block_at _ _ _ _ _ _ _ _ _ _ _ _ _ _ _ (fun k => ?_) (fun k => ?_) ?_ ?_ ?_ ?_
  · show V c main_v21 (((cfg0.win 0).blk t).view.emb (ix2 (⟨(j 0).val, hj0⟩ : Fin 8000) k)) = V c main_v21 _
    congr 1; funext a; apply Fin.ext
    match a with
    | ⟨0, _⟩ => show win0_0.index t (0 : Fin 2) * 8000 + 1 * (j 0).val = t.val * 8000 + (j 0).val; omega
    | ⟨1, _⟩ => show win0_0.index t (1 : Fin 2) * 128 + 1 * k.val = k.val; omega
  · show V c main_arg0 (((cfg0.win 1).blk t).view.emb (ix2 (⟨(j 0).val, hj0⟩ : Fin 8000) k)) = V c main_arg0 _
    congr 1; funext a; apply Fin.ext
    match a with
    | ⟨0, _⟩ => show win0_1.index t (0 : Fin 2) * 8000 + 1 * (j 0).val = t.val * 8000 + (j 0).val; omega
    | ⟨1, _⟩ => show win0_1.index t (1 : Fin 2) * 128 + 1 * k.val = k.val; omega
  · funext i
    show V c main_arg6 (((cfg0.win 2).blk t).view.emb i) = V c main_arg6 i
    congr 1; funext a; apply Fin.ext
    match a with
    | ⟨0, _⟩ => show win0_2.index t (0 : Fin 2) * 128 + 1 * (i 0).val = (i 0).val; omega
    | ⟨1, _⟩ => show win0_2.index t (1 : Fin 2) * 128 + 1 * (i 1).val = (i 1).val; omega
  · funext i
    show V c main_arg7 (((cfg0.win 3).blk t).view.emb i) = V c main_arg7 i
    congr 1; funext a; apply Fin.ext
    match a with
    | ⟨0, _⟩ => show win0_3.index t (0 : Fin 1) * 128 + 1 * (i 0).val = (i 0).val; omega
  · funext i
    show V c main_arg8 (((cfg0.win 4).blk t).view.emb i) = V c main_arg8 i
    congr 1; funext a; apply Fin.ext
    match a with
    | ⟨0, _⟩ => show win0_4.index t (0 : Fin 2) * 128 + 1 * (i 0).val = (i 0).val; omega
    | ⟨1, _⟩ => show win0_4.index t (1 : Fin 2) * 128 + 1 * (i 1).val = (i 1).val; omega
  · funext i
    show V c main_arg9 (((cfg0.win 5).blk t).view.emb i) = V c main_arg9 i
    congr 1; funext a; apply Fin.ext
    match a with
    | ⟨0, _⟩ => show win0_5.index t (0 : Fin 2) * 128 + 1 * (i 0).val = (i 0).val; omega
    | ⟨1, _⟩ => show win0_5.index t (1 : Fin 2) * 128 + 1 * (i 1).val = (i 1).val; omega

/-- An index of the result array is in point `t`'s block iff each coordinate is in the block's range on its axis. -/
theorem mem_row_block (t : Fin cfg0.N) (i : S200000x128.Idx) :
    i ∈ ((cfg0.win 6).blk t).view.set
      ↔ ∀ a : Fin 2, win0_6.index t a * S8000x128.size a ≤ (i a).val ∧ (i a).val < win0_6.index t a * S8000x128.size a + S8000x128.size a := by
  show i ∈ ((View.whole main_v22).slice (win0_6.rect t)).set ↔ _
  rw [View.set_slice_whole, Rect.mem_set_unit]
  exact Iff.rfl

/-- Every row of the result array is in some point's block: row `r` in that of point `r / 8000`. -/
theorem rows_covered (i : S200000x128.Idx) : ∃ t : Fin cfg0.N, (cfg0.win 6).flush t = true ∧ i ∈ ((cfg0.win 6).blk t).view.set := by
  have hi0 : (i 0).val < 200000 := (i 0).isLt
  have hi1 : (i 1).val < 128 := (i 1).isLt
  have hlt : (i 0).val / 8000 < cfg0.N := by rw [grid_points]; omega
  obtain ⟨_, _, _, _, _, _, _, _, _, _, _, o0, o1⟩ := index_maps ⟨(i 0).val / 8000, hlt⟩
  have o0' : win0_6.index ⟨(i 0).val / 8000, hlt⟩ (0 : Fin 2) = (i 0).val / 8000 := o0
  refine ⟨⟨(i 0).val / 8000, hlt⟩, flush0_6 _, ?_⟩
  rw [mem_row_block]
  intro a
  match a with
  | ⟨0, _⟩ =>
    show win0_6.index ⟨(i 0).val / 8000, hlt⟩ (0 : Fin 2) * 8000 ≤ (i 0).val
      ∧ (i 0).val < win0_6.index ⟨(i 0).val / 8000, hlt⟩ (0 : Fin 2) * 8000 + 8000
    omega
  | ⟨1, _⟩ =>
    show win0_6.index ⟨(i 0).val / 8000, hlt⟩ (1 : Fin 2) * 128 ≤ (i 1).val
      ∧ (i 1).val < win0_6.index ⟨(i 0).val / 8000, hlt⟩ (1 : Fin 2) * 128 + 128
    omega

/-- After the first pallas_call the result array holds stage one of the arrays the call was entered with. -/
theorem final (c : Dev nD) :
    (dat0 (F := Ideal) V c).arrAt 6 cfg0.N
      = Cert.Spec.projected (V c main_v21) (V c main_arg0) (V c main_arg6) (V c main_arg7) (V c main_arg8) (V c main_arg9) :=
  (dat0 (F := Ideal) V c).arrAt_eq_of_cover 6 _ (fun t _ => point_writes_row_block V c t) rows_covered

end Cert.KernelIdeal.StageOne

end
-- ==== Proof.StageTwo.lean ====
/-
  The second dense stage on the kernel's side: the result array after the row-blocked call, as one function of the arrays
  the call was entered with.

  The call runs ten grid points; point `t` is handed rows `10000 t … 10000 t + 9999` of the normalised aggregate together
  with the whole bias, readout matrix and readout bias, and writes back rows `10000 t … 10000 t + 9999` of the result.
  Entry `(y, q)` of what the body stores is `∑ⱼ max (block y j + bg j) 0 · Wout j q + bout q`: the rectifier of the biased
  block, multiplied into the zero accumulator (the narrowing format changes are the identity on extended reals), plus the
  broadcast readout bias. A block's row `y` at point `t` is row `10000 t + y` of the array, so each write-back is the
  corresponding block of stage two; row `r` of the result lies in the block of point `r / 10000`, so the ten blocks cover
  the result and the array ends holding stage two everywhere.
-/
import proofs.«149794_j7164005450261_1_alg».proof.Proof.Gen.KernelIdeal.Frame
import proofs.«149794_j7164005450261_1_alg».proof.Proof.Spec
import proofs.«149794_j7164005450261_1_alg».proof.Proof.LibDot
import Idealize.ShloMosaic.Lib.Pipeline.Value
import Idealize.ShloMosaic.Lib.ValueLayout

set_option maxRecDepth 16384

noncomputable section

open scoped BigOperators

namespace Cert.KernelIdeal.StageTwo

open Cert.KernelIdeal Cert.KernelIdeal.Gen Idealize.ShloMosaic Idealize.ShloMosaic.TcCoe Idealize.SL.Sem Idealize.ShloMosaic.ValueIdx
open Idealize.ShloMosaic.Pipeline (Dat)

/-- A matrix product into the zero accumulator, at an entry, whatever the operands' float formats: the sum over the
    contraction index. -/
theorem matmul_zero_apply {N K M : Nat} (D : DotDims ⟨2, ![N, K]⟩ ⟨2, ![K, M]⟩ ⟨2, ![N, M]⟩)
    (hlc : D.lhsContracting = [1]) (hrc : D.rhsContracting = [0]) (hlb : D.lhsBatch = [])
    (hln : D.lhsNonContracting = [0]) (hrb : D.rhsBatch = []) (hrn : D.rhsNonContracting = [1])
    {φl φr : FTy} (prec : Option ContractPrecision) (l : FVec Ideal ⟨2, ![N, K]⟩ φl) (r : FVec Ideal ⟨2, ![K, M]⟩ φr)
    (p : Fin N) (q : Fin M) :
    matmul D prec l r (constant ⟨2, ![N, M]⟩ .f32 0x00000000#32) (ix2 p q) = ∑ k : Fin K, l (ix2 p k) * r (ix2 k q) := by
  simp only [matmul]
  rw [Ideal.matmul_constant_zero_apply]
  exact Cert.LibDot.sum_contr D hlc hrc hlb hln hrb hrn l r p q

/-- THE BODY'S PAYLOAD AT AN ENTRY: from a block of 10000 rows of the aggregate, the bias, the readout matrix and the
    readout bias, entry `(y, q)` of what the body stores is stage two's formula on the block's row `y`. -/
theorem payload_apply (x0 : Vec Ideal S10000x128 .f32) (x1 : Vec Ideal S128 .f32) (x2 : Vec Ideal S128x64 .f32)
    (x3 : Vec Ideal S64 .f32) (y : Fin 10000) (q : Fin 64) :
    k1_pay1 (F := Ideal) x0 x1 x2 x3 (ix2 y q)
      = (∑ j : Fin 128, max (x0 (ix2 y j) + x1 (ix1 j)) Cert.Spec.zeroF * x2 (ix2 j q)) + x3 (ix1 q) := by
  unfold k1_pay1
  rw [addf_apply, matmul_zero_apply _ rfl rfl rfl rfl rfl rfl, broadcastTo_1b_ab_apply, shapeCast_a_1a_apply]
  refine congrArg (· + x3 (ix1 q)) (Finset.sum_congr rfl fun j _ => ?_)
  rw [truncf_apply, truncf_apply, maximumf_apply, addf_apply, shapeCast_self, broadcastTo_1b_ab_apply,
    shapeCast_a_1a_apply, broadcast_apply]
  rfl

/-- The kernel's payload on a block agrees with stage two at an entry of the whole arrays as soon as the block's row
    `y` is row `r` of the aggregate and the other three operands are the whole bias, matrix and readout bias. -/
theorem payload_eq_readout (x0 : Vec Ideal S10000x128 .f32) (x1 : Vec Ideal S128 .f32) (x2 : Vec Ideal S128x64 .f32)
    (x3 : Vec Ideal S64 .f32) (A : FVec Ideal ⟨2, ![100000, 128]⟩ .f32) (bg : FVec Ideal ⟨1, ![128]⟩ .f32)
    (W : FVec Ideal ⟨2, ![128, 64]⟩ .f32) (bo : FVec Ideal ⟨1, ![64]⟩ .f32) (y : Fin 10000) (q : Fin 64) (r : Fin 100000)
    (h0 : ∀ k : Fin 128, x0 (ix2 y k) = A (ix2 r k)) (h1 : ∀ k : Fin 128, x1 (ix1 k) = bg (ix1 k))
    (h2 : ∀ k : Fin 128, x2 (ix2 k q) = W (ix2 k q)) (h3 : x3 (ix1 q) = bo (ix1 q)) :
    k1_pay1 (F := Ideal) x0 x1 x2 x3 (ix2 y q) = Cert.Spec.readout A bg W bo (ix2 r q) := by
  rw [payload_apply]
  show _ = (∑ k : Fin 128, max (A (ix2 r k) + bg (ix1 k)) Cert.Spec.zeroF * W (ix2 k q)) + bo (ix1 q)
  rw [h3]
  refine congrArg (· + bo (ix1 q)) (Finset.sum_congr rfl fun k _ => ?_)
  rw [h0, h1, h2]

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided once over the ten grid points: the aggregate's window and the result's window are at
    row block `t`, column block `0`; the bias, matrix and readout-bias windows stay at block `0`. -/
theorem block_indices : ∀ t : Fin cfg1.N, t.val < 10
    ∧ win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The aggregate's block at point `t` is rows `10000 t … 10000 t + 9999` of the aggregate. -/
theorem agg_block_apply (c : Dev nD) (t : Fin cfg1.N) (y : Fin 10000) (k : Fin 128) (r : Fin 100000)
    (hr : r.val = t.val * 10000 + y.val) : iblk1 V c 0 t (ix2 y k) = V c main_v62 (ix2 r k) := by
  obtain ⟨-, a0, a1, -⟩ := block_indices t
  show V c main_v62 (((cfg1.win 0).blk t).view.emb (ix2 y k)) = _
  refine congrArg (V c main_v62) (funext fun a => Fin.ext ?_)
  match a with
  | ⟨0, _⟩ => show win1_0.index t (0 : Fin 2) * 10000 + 1 * y.val = r.val; rw [a0, hr]; omega
  | ⟨1, _⟩ => show win1_0.index t (1 : Fin 2) * 128 + 1 * k.val = k.val; rw [a1]; omega

/-- The bias window's block is the whole bias at every point. -/
theorem bias_block_apply (c : Dev nD) (t : Fin cfg1.N) (k : Fin 128) : iblk1 V c 1 t (ix1 k) = V c main_arg10 (ix1 k) := by
  obtain ⟨-, -, -, b0, -⟩ := block_indices t
  show V c main_arg10 (((cfg1.win 1).blk t).view.emb (ix1 k)) = _
  refine congrArg (V c main_arg10) (funext fun a => Fin.ext ?_)
  match a with
  | ⟨0, _⟩ => show win1_1.index t (0 : Fin 1) * 128 + 1 * k.val = k.val; rw [b0]; omega

/-- The readout matrix's block is the whole matrix at every point. -/
theorem matrix_block_apply (c : Dev nD) (t : Fin cfg1.N) (k : Fin 128) (q : Fin 64) :
    iblk1 V c 2 t (ix2 k q) = V c main_arg14 (ix2 k q) := by
  obtain ⟨-, -, -, -, w0, w1, -⟩ := block_indices t
  show V c main_arg14 (((cfg1.win 2).blk t).view.emb (ix2 k q)) = _
  refine congrArg (V c main_arg14) (funext fun a => Fin.ext ?_)
  match a with
  | ⟨0, _⟩ => show win1_2.index t (0 : Fin 2) * 128 + 1 * k.val = k.val; rw [w0]; omega
  | ⟨1, _⟩ => show win1_2.index t (1 : Fin 2) * 64 + 1 * q.val = q.val; rw [w1]; omega

/-- The readout bias's block is the whole readout bias at every point. -/
theorem outbias_block_apply (c : Dev nD) (t : Fin cfg1.N) (q : Fin 64) : iblk1 V c 3 t (ix1 q) = V c main_arg15 (ix1 q) := by
  obtain ⟨-, -, -, -, -, -, d0, -⟩ := block_indices t
  show V c main_arg15 (((cfg1.win 3).blk t).view.emb (ix1 q)) = _
  refine congrArg (V c main_arg15) (funext fun a => Fin.ext ?_)
  match a with
  | ⟨0, _⟩ => show win1_3.index t (0 : Fin 1) * 64 + 1 * q.val = q.val; rw [d0]; omega

/-- Entry `(y, q)` of the result's block at point `t` is entry `(10000 t + y, q)` of the result. -/
theorem out_block_emb (t : Fin cfg1.N) (y : Fin 10000) (q : Fin 64) (r : Fin 100000) (hr : r.val = t.val * 10000 + y.val) :
    ((cfg1.win 4).blk t).view.emb (ix2 y q) = ix2 r q := by
  obtain ⟨-, -, -, -, -, -, -, o0, o1⟩ := block_indices t
  funext a; apply Fin.ext
  match a with
  | ⟨0, _⟩ => show win1_4.index t (0 : Fin 2) * 10000 + 1 * y.val = r.val; rw [o0, hr]; omega
  | ⟨1, _⟩ => show win1_4.index t (1 : Fin 2) * 64 + 1 * q.val = q.val; rw [o1]; omega

/-- WHAT POINT `t` WRITES BACK is block `t` of stage two of the arrays the call was entered with. -/
theorem flushed_eq (c : Dev nD) (t : Fin cfg1.N) :
    (dat1 (F := Ideal) V c).flushed 4 t = ((cfg1.win 4).blk t).view.read (Elt Ideal)
      (Cert.Spec.readout (V c main_v62) (V c main_arg10) (V c main_arg14) (V c main_arg15)) := by
  show (cfg1.win 4).cut (grid1.coords t) ((dat1 V c).after 4 t) = _
  rw [after1_4]
  unfold out1_4
  rw [View.canon_unit_zero zero_offsets2]
  simp only [View.ld_unit_zero (S := S10000x128) zero_offsets2, View.ld_unit_zero (S := S128) zero_offsets1,
    View.ld_unit_zero (S := S128x64) zero_offsets2, View.ld_unit_zero (S := S64) zero_offsets1]
  have ht : t.val < 10 := (block_indices t).1
  funext j
  obtain ⟨y, q, rfl⟩ : ∃ (y : Fin 10000) (q : Fin 64), j = ix2 y q := ⟨j 0, j 1, eq_ix2 j⟩
  show k1_pay1 (F := Ideal) (iblk1 V c 0 t) (iblk1 V c 1 t) (iblk1 V c 2 t) (iblk1 V c 3 t) (ix2 y q)
    = Cert.Spec.readout (V c main_v62) (V c main_arg10) (V c main_arg14) (V c main_arg15) (((cfg1.win 4).blk t).view.emb (ix2 y q))
  refine Eq.trans ?_ (congrArg (Cert.Spec.readout (V c main_v62) (V c main_arg10) (V c main_arg14) (V c main_arg15))
    (out_block_emb t y q ⟨t.val * 10000 + y.val, by omega⟩ rfl)).symm
  exact payload_eq_readout _ _ _ _ _ _ _ _ y q ⟨t.val * 10000 + y.val, by omega⟩
    (fun k => agg_block_apply V c t y k _ rfl) (fun k => bias_block_apply V c t k)
    (fun k => matrix_block_apply V c t k q) (outbias_block_apply V c t q)

/-- An index of the result is in point `t`'s block iff each coordinate is in the block's range on its axis. -/
theorem mem_out_block (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v63).slice (win1_4.rect t)).set ↔ _
  rw [View.set_slice_whole, Rect.mem_set_unit]
  exact Iff.rfl

/-- Every entry of the result is in the block of the point its row falls in: row `r` in that of point `r / 10000`. -/
theorem out_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := by decide
  refine ⟨⟨(i 0).val / 10000, by rw [hN]; omega⟩, flush1_4 _, ?_⟩
  obtain ⟨-, -, -, -, -, -, -, o0, o1⟩ := block_indices ⟨(i 0).val / 10000, by rw [hN]; omega⟩
  rw [mem_out_block]
  intro a
  match a with
  | ⟨0, _⟩ =>
    show win1_4.index ⟨(i 0).val / 10000, _⟩ (0 : Fin 2) * 10000 ≤ (i 0).val
      ∧ (i 0).val < win1_4.index ⟨(i 0).val / 10000, _⟩ (0 : Fin 2) * 10000 + 10000
    rw [o0]; show (i 0).val / 10000 * 10000 ≤ (i 0).val ∧ (i 0).val < (i 0).val / 10000 * 10000 + 10000; omega
  | ⟨1, _⟩ =>
    show win1_4.index ⟨(i 0).val / 10000, _⟩ (1 : Fin 2) * 64 ≤ (i 1).val
      ∧ (i 1).val < win1_4.index ⟨(i 0).val / 10000, _⟩ (1 : Fin 2) * 64 + 64
    rw [o1]; omega

/-- After the second pallas_call the result array holds stage two of the arrays the call was entered with. -/
theorem final (c : Dev nD) :
    (dat1 (F := Ideal) V c).arrAt 4 cfg1.N
      = Cert.Spec.readout (V c main_v62) (V c main_arg10) (V c main_arg14) (V c main_arg15) :=
  (dat1 (F := Ideal) V c).arrAt_eq_of_cover 4 (Cert.Spec.readout (V c main_v62) (V c main_arg10) (V c main_arg14) (V c main_arg15))
    (fun t _ => flushed_eq V c t) out_cover

end Cert.KernelIdeal.StageTwo

end
-- ==== Proof.Network.lean ====
/-
  What both programs compute, as one function of the argument arrays: the mean aggregate of the source features,
  stage one on it and on the rows' own features, the normalised aggregate of stage one's result, stage two.
-/
import proofs.«149794_j7164005450261_1_alg».proof.Proof.Spec
import proofs.«149794_j7164005450261_1_alg».proof.Proof.HostStages

noncomputable section

namespace Cert.Network

open Idealize.ShloMosaic
open Cert.KernelIdeal.HostStages (degRet degOrig meanAgg normAgg)

/-- The network's result from its eleven live arguments (the other five feed nothing that is returned). -/
def network (a0 : FVec Ideal ⟨2, ![200000, 128]⟩ .f32) (a1 : FVec Ideal ⟨2, ![100000, 128]⟩ .f32)
    (a2 a3 : IVec ⟨1, ![800000]⟩ 32) (a6 : FVec Ideal ⟨2, ![128, 128]⟩ .f32) (a7 : FVec Ideal ⟨1, ![128]⟩ .f32)
    (a8 a9 : FVec Ideal ⟨2, ![128, 128]⟩ .f32) (a10 : FVec Ideal ⟨1, ![128]⟩ .f32) (a14 : FVec Ideal ⟨2, ![128, 64]⟩ .f32)
    (a15 : FVec Ideal ⟨1, ![64]⟩ .f32) : FVec Ideal ⟨2, ![100000, 64]⟩ .f32 :=
  Cert.Spec.readout
    (normAgg (F := Ideal) (Cert.Spec.projected (meanAgg (F := Ideal) a1 a2 a3) a0 a6 a7 a8 a9) (degRet (F := Ideal) a2)
      (degOrig (F := Ideal) a3) a2 a3)
    a10 a14 a15

end Cert.Network

end
-- ==== Proof.KernelValue.lean ====
/-
  The kernel's result array after its run, as the network's function of the argument arrays.

  The run ends with the result array at what the second stage's write-backs leave. That is stage two of the arrays the
  second stage was entered with; its row operand there is the normalised aggregate of the first stage's result array,
  which is stage one of the arrays the first stage was entered with; and its row operand there is the mean aggregate
  of the arguments. No host operation and no stage writes an argument.
-/
import proofs.«149794_j7164005450261_1_alg».proof.Proof.RunNamed
import proofs.«149794_j7164005450261_1_alg».proof.Proof.HostRun
import proofs.«149794_j7164005450261_1_alg».proof.Proof.StageOne
import proofs.«149794_j7164005450261_1_alg».proof.Proof.StageTwo
import proofs.«149794_j7164005450261_1_alg».proof.Proof.Network

set_option maxRecDepth 16384

noncomputable section

namespace Cert.KernelIdeal.KernelValue

open Cert.KernelIdeal Cert.KernelIdeal.Gen Cert.KernelIdeal.HostStages Cert.KernelIdeal.HostRun
open Idealize.ShloMosaic Idealize.ShloMosaic.TcCoe Idealize.SL.Sem
open Cert.Network (network)

variable (m : (ℓ : Loc nD τ sig) → Buf (Elt Ideal) ℓ) (ρ : Dev nD → PrngReg)

/-- The first stage's result array, where the stage is left. -/
theorem exit0_result (c : Dev nD) :
    W2 m ρ c (Proc.devRef .tc main_v22)
      = Cert.Spec.projected (meanAgg (F := Ideal) (m ((c : Thread nD τ).loc main_arg1)) (m ((c : Thread nD τ).loc main_arg2)) (m ((c : Thread nD τ).loc main_arg3))) (m ((c : Thread nD τ).loc main_arg0)) (m ((c : Thread nD τ).loc main_arg6)) (m ((c : Thread nD τ).loc main_arg7)) (m ((c : Thread nD τ).loc main_arg8)) (m ((c : Thread nD τ).loc main_arg9)) := by
  refine ((W2_arr m ρ c 6).trans (Cert.KernelIdeal.StageOne.final (V1 m ρ) c)).trans ?_
  show Cert.Spec.projected (W1 m ρ c (Proc.devRef .tc main_v21)) (W1 m ρ c (Proc.devRef .tc main_arg0)) (W1 m ρ c (Proc.devRef .tc main_arg6))
    (W1 m ρ c (Proc.devRef .tc main_arg7)) (W1 m ρ c (Proc.devRef .tc main_arg8)) (W1 m ρ c (Proc.devRef .tc main_arg9)) = _
  rw [entry0_agg, entry0_arg0, entry0_arg6, entry0_arg7, entry0_arg8, entry0_arg9]

/-- The result array at the end of the run. -/
theorem result_eq (c : Dev nD) :
    W8 m ρ c (Proc.devRef .tc main_v63)
      = network (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) := by
  refine ((W8_arr m ρ c 4).trans (Cert.KernelIdeal.StageTwo.final (V7 m ρ) c)).trans ?_
  show Cert.Spec.readout (W7 m ρ c (Proc.devRef .tc main_v62)) (W7 m ρ c (Proc.devRef .tc main_arg10)) (W7 m ρ c (Proc.devRef .tc main_arg14))
    (W7 m ρ c (Proc.devRef .tc main_arg15)) = _
  rw [entry1_agg, entry1_arg10, entry1_arg14, entry1_arg15, exit0_result]
  rfl

/-- The kernel's run: every weakly fair execution terminates, the result array at the network's function of the
    arguments, the arguments as launched. -/
theorem run : θ_run defs (onTc (τ := τ) (main (F := Ideal))) ⟨m, fun _ => 0, ρ⟩ (fun r => ∀ c : Dev nD,
      r.2.mem ((c.tc : Thread nD τ).loc main_v63)
        = network (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ c), (h c).2⟩)
    (Cert.KernelIdeal.RunNamed.run_named (F := Ideal) m ρ)

end Cert.KernelIdeal.KernelValue

end
-- ==== Proof.RefStageOne.lean ====
import proofs.«149794_j7164005450261_1_alg».proof.Proof.Gen.ReferenceIdeal
import proofs.«149794_j7164005450261_1_alg».proof.Proof.Spec
import proofs.«149794_j7164005450261_1_alg».proof.Proof.LibDot
import Idealize.ShloMosaic.Lib.Pipeline.Value

noncomputable section

namespace Cert.ReferenceIdeal.StageOne

open Cert.ReferenceIdeal Cert.ReferenceIdeal.Gen Idealize.ShloMosaic Idealize.ShloMosaic.ValueIdx

/-- The bias vector, made a one-row matrix and repeated down the rows, reads at `(p, j)` as its entry `j`. -/
theorem bias_at (bl : FVec Ideal S128 .f32) (p : Fin 200000) (j : Fin 128) :
    broadcastInDim S200000x128 ![0, 1] bcast_S1x128_S200000x128_0_1 (broadcastInDim S1x128 ![1] bcast_S128_S1x128_1 bl) (ix2 p j)
      = bl (ix1 j) := by
  refine (broadcastInDim_apply _ _ _ (ix2 p j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The scalar zero repeated over the whole matrix reads everywhere as the float word zero. -/
theorem zero_at (p : Fin 200000) (j : Fin 128) :
    broadcastInDim S200000x128 ![] bcast_S_S200000x128 (constant (F := Ideal) S_ .f32 0x00000000#32) (ix2 p j) = Cert.Spec.zeroF :=
  broadcastInDim_apply _ _ _ (ix2 p j) ix0 fun a => a.elim0

/-- The reference's own operations for stage one are stage one. -/
theorem stage_eq (agg x : FVec Ideal S200000x128 .f32) (Wl : FVec Ideal S128x128 .f32) (bl : FVec Ideal S128 .f32)
    (Wr Wg : FVec Ideal S128x128 .f32) :
    Host.dotGeneral dot_S200000x128_S128x128_S200000x128_1_0_0_1_n_n none
      (maximumf (addf (addf (Host.dotGeneral dot_S200000x128_S128x128_S200000x128_1_0_0_1_n_n none agg Wl)
            (broadcastInDim S200000x128 ![0, 1] bcast_S1x128_S200000x128_0_1 (broadcastInDim S1x128 ![1] bcast_S128_S1x128_1 bl)))
          (Host.dotGeneral dot_S200000x128_S128x128_S200000x128_1_0_0_1_n_n none x Wr))
        (broadcastInDim S200000x128 ![] bcast_S_S200000x128 (constant S_ .f32 0x00000000#32))) Wg
      = Cert.Spec.projected agg x Wl bl Wr Wg := by
  funext i
  obtain ⟨p, q, rfl⟩ : ∃ (p : Fin 200000) (q : Fin 128), i = ix2 p q := ⟨i 0, i 1, eq_ix2 i⟩
  -- the outer product at entry (p, q) is a sum over the hidden channel j
  refine (Cert.LibDot.dotGeneral_apply _ rfl rfl rfl rfl rfl rfl none _ Wg p q).trans ?_
  unfold Cert.Spec.projected Cert.Spec.hidden
  refine Finset.sum_congr rfl fun j _ => ?_
  -- the hidden activation at (p, j): two inner products, the bias, the comparison with zero
  rw [maximumf_apply, addf_apply, addf_apply, bias_at, zero_at,
    Cert.LibDot.dotGeneral_apply _ rfl rfl rfl rfl rfl rfl none agg Wl p j,
    Cert.LibDot.dotGeneral_apply _ rfl rfl rfl rfl rfl rfl none x Wr p j]

end Cert.ReferenceIdeal.StageOne

end
-- ==== Proof.RefStageTwo.lean ====
import proofs.«149794_j7164005450261_1_alg».proof.Proof.Gen.ReferenceIdeal
import proofs.«149794_j7164005450261_1_alg».proof.Proof.Spec
import proofs.«149794_j7164005450261_1_alg».proof.Proof.LibDot
import Idealize.ShloMosaic.Lib.Pipeline.Value

noncomputable section

open scoped BigOperators

namespace Cert.ReferenceIdeal.StageTwo

open Cert.ReferenceIdeal Cert.ReferenceIdeal.Gen Idealize.ShloMosaic Idealize.ShloMosaic.ValueIdx

/-- A bias vector broadcast first to one row and then down the rows reads, at entry `(p, j)`, the bias of column `j`
    (128 columns). -/
theorem bias128_apply (bg : FVec Ideal S128 .f32) (p : Fin 100000) (j : Fin 128) :
    broadcastInDim S100000x128 ![0, 1] bcast_S1x128_S100000x128_0_1 (broadcastInDim S1x128 ![1] bcast_S128_S1x128_1 bg) (ix2 p j)
      = bg (ix1 j) := by
  refine (broadcastInDim_apply _ _ _ (ix2 p j) (ix2 (0 : Fin 1) j) fun a => ?_).trans
    (broadcastInDim_apply _ _ bg (ix2 (0 : Fin 1) j) (ix1 j) fun a => ?_)
  · match a with
    | ⟨0, _⟩ => rfl
    | ⟨1, _⟩ => rfl
  · match a with
    | ⟨0, _⟩ => rfl

/-- The same for the readout bias (64 columns). -/
theorem bias64_apply (bout : FVec Ideal S64 .f32) (p : Fin 100000) (q : Fin 64) :
    broadcastInDim S100000x64 ![0, 1] bcast_S1x64_S100000x64_0_1 (broadcastInDim S1x64 ![1] bcast_S64_S1x64_1 bout) (ix2 p q)
      = bout (ix1 q) := by
  refine (broadcastInDim_apply _ _ _ (ix2 p q) (ix2 (0 : Fin 1) q) fun a => ?_).trans
    (broadcastInDim_apply _ _ bout (ix2 (0 : Fin 1) q) (ix1 q) fun a => ?_)
  · match a with
    | ⟨0, _⟩ => rfl
    | ⟨1, _⟩ => rfl
  · match a with
    | ⟨0, _⟩ => rfl

/-- The scalar zero broadcast over the whole array reads the zero word everywhere. -/
theorem zero_apply (p : Fin 100000) (j : Fin 128) :
    broadcastInDim S100000x128 ![] bcast_S_S100000x128 (constant (F := Ideal) S_ .f32 0x00000000#32) (ix2 p j) = Cert.Spec.zeroF :=
  (broadcastInDim_apply _ _ _ (ix2 p j) ix0 fun a => a.elim0).trans (constant_apply _ _)

/-- The reference's own operations for stage two are stage two. -/
theorem stage_eq (agg2 : FVec Ideal S100000x128 .f32) (bg : FVec Ideal S128 .f32) (Wout : FVec Ideal S128x64 .f32)
    (bout : FVec Ideal S64 .f32) :
    addf (Host.dotGeneral dot_S100000x128_S128x64_S100000x64_1_0_0_1_n_n none
        (maximumf (addf agg2 (broadcastInDim S100000x128 ![0, 1] bcast_S1x128_S100000x128_0_1 (broadcastInDim S1x128 ![1] bcast_S128_S1x128_1 bg)))
          (broadcastInDim S100000x128 ![] bcast_S_S100000x128 (constant S_ .f32 0x00000000#32))) Wout)
      (broadcastInDim S100000x64 ![0, 1] bcast_S1x64_S100000x64_0_1 (broadcastInDim S1x64 ![1] bcast_S64_S1x64_1 bout))
      = Cert.Spec.readout agg2 bg Wout bout := by
  funext i
  obtain ⟨p, q, rfl⟩ : ∃ (p : Fin 100000) (q : Fin 64), i = ix2 p q := ⟨i 0, i 1, eq_ix2 i⟩
  rw [addf_apply, Cert.LibDot.dotGeneral_apply _ rfl rfl rfl rfl rfl rfl, bias64_apply]
  show _ = (∑ j : Fin 128, max (agg2 (ix2 p j) + bg (ix1 j)) Cert.Spec.zeroF * Wout (ix2 j q)) + bout (ix1 q)
  refine congrArg (· + bout (ix1 q)) (Finset.sum_congr rfl fun j _ => ?_)
  rw [maximumf_apply, addf_apply, bias128_apply, zero_apply]

end Cert.ReferenceIdeal.StageTwo

end
-- ==== Proof.RefValue.lean ====
/-
  The reference's result, read through the two dense stages.

  The reference's one composed term is: stage two applied to the normalised aggregate of stage one applied to the
  mean aggregate, each dense stage spelt in the reference's own host operations (a product with the whole weight
  matrix, the bias broadcast over the rows, the maximum with zero), and each of those is the stage's index-by-index
  specification.
-/
import proofs.«149794_j7164005450261_1_alg».proof.Proof.RefRun
import proofs.«149794_j7164005450261_1_alg».proof.Proof.Network
import proofs.«149794_j7164005450261_1_alg».proof.Proof.RefStageOne
import proofs.«149794_j7164005450261_1_alg».proof.Proof.RefStageTwo

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem
open Cert.Network (network)
open Cert.KernelIdeal.HostStages (degRet degOrig meanAgg normAgg)

/-- The shape of the reference's term, whatever the float values are: the sparse parts around the two dense stages,
    the degree arrays recomputed where they are used. -/
theorem res_shape {F : FTy → Type} [FloatOps F] (m : (ℓ : Loc nD τ sig) → Buf (Elt F) ℓ) (c : Dev nD) :
    res_out0 (F := F) m c
      = addf (Host.dotGeneral dot_S100000x128_S128x64_S100000x64_1_0_0_1_n_n none
        (maximumf (addf (normAgg (Host.dotGeneral dot_S200000x128_S128x128_S200000x128_1_0_0_1_n_n none
      (maximumf (addf (addf (Host.dotGeneral dot_S200000x128_S128x128_S200000x128_1_0_0_1_n_n none (meanAgg (m ((c.tc : Thread nD τ).loc main_arg1)) (m ((c.tc : Thread nD τ).loc main_arg2)) (m ((c.tc : Thread nD τ).loc main_arg3))) (m ((c.tc : Thread nD τ).loc main_arg6)))
            (broadcastInDim S200000x128 ![0, 1] bcast_S1x128_S200000x128_0_1 (broadcastInDim S1x128 ![1] bcast_S128_S1x128_1 (m ((c.tc : Thread nD τ).loc main_arg7)))))
          (Host.dotGeneral dot_S200000x128_S128x128_S200000x128_1_0_0_1_n_n none (m ((c.tc : Thread nD τ).loc main_arg0)) (m ((c.tc : Thread nD τ).loc main_arg8))))
        (broadcastInDim S200000x128 ![] bcast_S_S200000x128 (constant S_ .f32 0x00000000#32))) (m ((c.tc : Thread nD τ).loc main_arg9)))
          (degRet (m ((c.tc : Thread nD τ).loc main_arg2))) (degOrig (m ((c.tc : Thread nD τ).loc main_arg3))) (m ((c.tc : Thread nD τ).loc main_arg2)) (m ((c.tc : Thread nD τ).loc main_arg3))) (broadcastInDim S100000x128 ![0, 1] bcast_S1x128_S100000x128_0_1 (broadcastInDim S1x128 ![1] bcast_S128_S1x128_1 (m ((c.tc : Thread nD τ).loc main_arg10)))))
          (broadcastInDim S100000x128 ![] bcast_S_S100000x128 (constant S_ .f32 0x00000000#32))) (m ((c.tc : Thread nD τ).loc main_arg14)))
      (broadcastInDim S100000x64 ![0, 1] bcast_S1x64_S100000x64_0_1 (broadcastInDim S1x64 ![1] bcast_S64_S1x64_1 (m ((c.tc : Thread nD τ).loc main_arg15)))) := rfl

/-- The reference's result is the network's function of its arguments. -/
theorem res_eq (m : (ℓ : Loc nD τ sig) → Buf (Elt Ideal) ℓ) (c : Dev nD) :
    res_out0 (F := Ideal) m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) := by
  rw [res_shape, Cert.ReferenceIdeal.StageOne.stage_eq, Cert.ReferenceIdeal.StageTwo.stage_eq]
  rfl

end Cert.ReferenceIdeal.RefValue

end
-- ==== Proof.lean ====
/-
  The certificate's five claims.

  The kernel runs two dense row-blocked stages as pallas_calls and everything sparse (degree counts, the mean
  aggregate, the symmetrically normalised aggregate) as host operations around them; the reference runs the whole
  network as host operations, and also computes two activations that feed nothing it returns. Over the extended reals:

  * each dense stage, block by block, is one whole-array function of the arrays it is entered with — a product with a
    whole weight matrix is row-wise, so the row blocks tile it, and a change of float format is the identity;
  * the sums `(a·Wl + x·Wr) + b` of the kernel and `(a·Wl + b) + x·Wr` of the reference agree, addition of extended reals
    being commutative and associative (no finiteness of the inputs is used);
  * the sparse parts are the same operations in both programs, on the same arguments.

  So both result arrays are the same function `Cert.Network.network` of the argument arrays. The frames of the two
  kernel programs are the generated ones; the reference's is its generated run with the result dropped; the
  idealisation rewrote no operation, so `preserves` has nothing to state.
-/
import proofs.«149794_j7164005450261_1_alg».proof.Defs
import proofs.«149794_j7164005450261_1_alg».proof.Proof.Gen.Kernel
import proofs.«149794_j7164005450261_1_alg».proof.Proof.Gen.Kernel.Skeleton
import proofs.«149794_j7164005450261_1_alg».proof.Proof.Gen.Kernel.Launch
import proofs.«149794_j7164005450261_1_alg».proof.Proof.Gen.Kernel.Points
import proofs.«149794_j7164005450261_1_alg».proof.Proof.Gen.Kernel.Frame
import proofs.«149794_j7164005450261_1_alg».proof.Proof.Gen.KernelIdeal
import proofs.«149794_j7164005450261_1_alg».proof.Proof.Gen.KernelIdeal.Skeleton
import proofs.«149794_j7164005450261_1_alg».proof.Proof.Gen.KernelIdeal.Launch
import proofs.«149794_j7164005450261_1_alg».proof.Proof.Gen.KernelIdeal.Points
import proofs.«149794_j7164005450261_1_alg».proof.Proof.Gen.KernelIdeal.Frame
import proofs.«149794_j7164005450261_1_alg».proof.Proof.Gen.ReferenceIdeal
import proofs.«149794_j7164005450261_1_alg».proof.Proof.Gen.Pre_finite_inputs
import proofs.«149794_j7164005450261_1_alg».proof.Proof.RefRun
import proofs.«149794_j7164005450261_1_alg».proof.Proof.KernelValue
import proofs.«149794_j7164005450261_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the network's function of the arguments in their result arrays, and memories that agree
    on the arguments give it the same arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15⟩ := hagree c
  refine (Cert.ReferenceIdeal.RefValue.res_eq m' c).trans ?_
  rw [e0, e1, e2, e3, e6, e7, e8, e9, e10, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
